-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S256x256 : Shape := ⟨2, ![256, 256]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x256x64x64 .f32) (main_arg1 : FVec F S32x256 .f32) (main_arg2 : FVec F S32x256 .f32) (main_arg3 : FVec F S256x256 .f32) (main_arg4 : FVec F S256 .f32) (main_arg5 : FVec F S256x256 .f32) (main_arg6 : FVec F S256 .f32) (main_arg7 : FVec F S256 .f32) (main_arg8 : FVec F S256 .f32) (main_arg9 : FVec F S256x256 .f32) (main_arg10 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S32x256x64x64 : Shape := ⟨4, ![32, 256, 64, 64]⟩
abbrev S32x256 : Shape := ⟨2, ![32, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S32x256x4096 : Shape := ⟨3, ![32, 256, 4096]⟩
abbrev S32x256x1 : Shape := ⟨3, ![32, 256, 1]⟩
abbrev S1x256x1 : Shape := ⟨3, ![1, 256, 1]⟩
abbrev S1x256x2048 : Shape := ⟨3, ![1, 256, 2048]⟩
abbrev S1x2048 : Shape := ⟨2, ![1, 2048]⟩
abbrev S1x1x2048 : Shape := ⟨3, ![1, 1, 2048]⟩

abbrev nBuf : Space → Nat
  | .hbm => 41
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S32x256, .f32⟩
  | .hbm, ⟨13, _⟩ => ⟨S1x256, .f32⟩
  | .hbm, ⟨14, _⟩ => ⟨S32x256, .f32⟩
  | .hbm, ⟨15, _⟩ => ⟨S32x256, .f32⟩
  | .hbm, ⟨16, _⟩ => ⟨S256x256, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S256x256, .f32⟩
  | .hbm, ⟨22, _⟩ => ⟨S32x256, .f32⟩
  | .hbm, ⟨23, _⟩ => ⟨S1x256, .f32⟩
  | .hbm, ⟨24, _⟩ => ⟨S32x256, .f32⟩
  | .hbm, ⟨25, _⟩ => ⟨S32x256, .f32⟩
  | .hbm, ⟨26, _⟩ => ⟨S32x256, .f32⟩
  | .hbm, ⟨27, _⟩ => ⟨S32x256, .f32⟩
  | .hbm, ⟨28, _⟩ => ⟨S_, .f32⟩
  | .hbm, ⟨29, _⟩ => ⟨S32x256, .f32⟩
  | .hbm, ⟨30, _⟩ => ⟨S32x256, .f32⟩
  | .hbm, ⟨31, _⟩ => ⟨S_, .f32⟩
  | .hbm, ⟨32, _⟩ => ⟨S32x256, .f32⟩
  | .hbm, ⟨33, _⟩ => ⟨S32x256, .f32⟩
  | .hbm, ⟨34, _⟩ => ⟨S32x256x4096, .f32⟩
  | .hbm, ⟨35, _⟩ => ⟨S32x256x1, .f32⟩
  | .hbm, ⟨36, _⟩ => ⟨S32x256x1, .f32⟩
  | .hbm, ⟨37, _⟩ => ⟨S1x256x1, .f32⟩
  | .hbm, ⟨38, _⟩ => ⟨S1x256x1, .f32⟩
  | .hbm, ⟨39, _⟩ => ⟨S32x256x4096, .f32⟩
  | .hbm, ⟨40, _⟩ => ⟨S32x256x64x64, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x256x2048, .f32⟩
  | .local _ .vmem, ⟨9, _⟩ => ⟨S1x256x2048, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x256_S256x256_1_0 : S256x256.Transposes [1, 0] S256x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  shapeCasts_S32x256x64x64_S32x256x4096 : S32x256x64x64.ShapeCasts S32x256x4096
  shapeCasts_S32x256_S32x256x1 : S32x256.ShapeCasts S32x256x1
  shapeCasts_S256_S1x256x1 : S256.ShapeCasts S1x256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x2048 : S1x256x1.Broadcasts S1x256x2048
  reduces_S1x256x2048_S1x2048 : S1x256x2048.Reduces [1] S1x2048
  shapeCasts_S1x2048_S1x1x2048 : S1x2048.ShapeCasts S1x1x2048
  broadcasts_S1x1x2048_S1x256x2048 : S1x1x2048.Broadcasts S1x256x2048
  shapeCasts_S32x256x4096_S32x256x64x64 : S32x256x4096.ShapeCasts S32x256x64x64
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x256x4096.size a
  hwx0_0 : ∀ i : grid0.Coords, EltTy.bits .f32 = 32 ∨ (Rect.block (s := S32x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S32x256x1.size a
  hwx0_1 : ∀ i : grid0.Coords, EltTy.bits .f32 = 32 ∨ (Rect.block (s := S32x256x1) S1x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x256x1.size a
  hwx0_2 : ∀ i : grid0.Coords, EltTy.bits .f32 = 32 ∨ (Rect.block (s := S1x256x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S1x256x1.size a
  hwx0_3 : ∀ i : grid0.Coords, EltTy.bits .f32 = 32 ∨ (Rect.block (s := S1x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S32x256x1.size a
  hwx0_4 : ∀ i : grid0.Coords, EltTy.bits .f32 = 32 ∨ (Rect.block (s := S32x256x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x256x4096.size a
  hwx0_5 : ∀ i : grid0.Coords, EltTy.bits .f32 = 32 ∨ (Rect.block (s := S32x256x4096) S1x256x2048.size (cc0_transform_5 i) (hinb0_5 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_v21) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S256x256 : Shape := ⟨2, ![256, 256]⟩
abbrev S256 : Shape := ⟨1, ![256]⟩
abbrev S32x256x4096 : Shape := ⟨3, ![32, 256, 4096]⟩
abbrev S32x4096x256 : Shape := ⟨3, ![32, 4096, 256]⟩
abbrev S1x256 : Shape := ⟨2, ![1, 256]⟩
abbrev S32x1x256 : Shape := ⟨3, ![32, 1, 256]⟩
abbrev S_ : Shape := ⟨0, ![]⟩
abbrev S32x4096 : Shape := ⟨2, ![32, 4096]⟩
abbrev S32x4096x1 : Shape := ⟨3, ![32, 4096, 1]⟩
abbrev S1x1x256 : Shape := ⟨3, ![1, 1, 256]⟩

abbrev nBuf : Space → Nat
  | .hbm => 76
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S32x256x4096, .f32⟩
  | .hbm, ⟨12, _⟩ => ⟨S32x4096x256, .f32⟩
  | .hbm, ⟨13, _⟩ => ⟨S256x256, .f32⟩
  | .hbm, ⟨14, _⟩ => ⟨S32x256, .f32⟩
  | .hbm, ⟨15, _⟩ => ⟨S1x256, .f32⟩
  | .hbm, ⟨16, _⟩ => ⟨S32x256, .f32⟩
  | .hbm, ⟨17, _⟩ => ⟨S32x256, .f32⟩
  | .hbm, ⟨18, _⟩ => ⟨S256x256, .f32⟩
  | .hbm, ⟨19, _⟩ => ⟨S32x256, .f32⟩
  | .hbm, ⟨20, _⟩ => ⟨S1x256, .f32⟩
  | .hbm, ⟨21, _⟩ => ⟨S32x256, .f32⟩
  | .hbm, ⟨22, _⟩ => ⟨S32x256, .f32⟩
  | .hbm, ⟨23, _⟩ => ⟨S32x1x256, .f32⟩
  | .hbm, ⟨24, _⟩ => ⟨S32x4096x256, .f32⟩
  | .hbm, ⟨25, _⟩ => ⟨S32x4096x256, .f32⟩
  | .hbm, ⟨26, _⟩ => ⟨S_, .f32⟩
  | .hbm, ⟨27, _⟩ => ⟨S32x4096, .f32⟩
  | .hbm, ⟨28, _⟩ => ⟨S32x4096x1, .f32⟩
  | .hbm, ⟨29, _⟩ => ⟨S_, .f32⟩
  | .hbm, ⟨30, _⟩ => ⟨S32x4096x1, .f32⟩
  | .hbm, ⟨31, _⟩ => ⟨S32x4096x1, .f32⟩
  | .hbm, ⟨32, _⟩ => ⟨S32x4096x256, .f32⟩
  | .hbm, ⟨33, _⟩ => ⟨S32x4096x256, .f32⟩
  | .hbm, ⟨34, _⟩ => ⟨S32x4096x256, .f32⟩
  | .hbm, ⟨35, _⟩ => ⟨S_, .f32⟩
  | .hbm, ⟨36, _⟩ => ⟨S32x4096, .f32⟩
  | .hbm, ⟨37, _⟩ => ⟨S32x4096x1, .f32⟩
  | .hbm, ⟨38, _⟩ => ⟨S_, .f32⟩
  | .hbm, ⟨39, _⟩ => ⟨S32x4096x1, .f32⟩
  | .hbm, ⟨40, _⟩ => ⟨S32x4096x1, .f32⟩
  | .hbm, ⟨41, _⟩ => ⟨S32x4096x256, .f32⟩
  | .hbm, ⟨42, _⟩ => ⟨S32x4096x256, .f32⟩
  | .hbm, ⟨43, _⟩ => ⟨S_, .f32⟩
  | .hbm, ⟨44, _⟩ => ⟨S32x4096x1, .f32⟩
  | .hbm, ⟨45, _⟩ => ⟨S32x4096x1, .f32⟩
  | .hbm, ⟨46, _⟩ => ⟨S32x4096x1, .f32⟩
  | .hbm, ⟨47, _⟩ => ⟨S32x4096x256, .f32⟩
  | .hbm, ⟨48, _⟩ => ⟨S32x4096x256, .f32⟩
  | .hbm, ⟨49, _⟩ => ⟨S1x1x256, .f32⟩
  | .hbm, ⟨50, _⟩ => ⟨S32x4096x256, .f32⟩
  | .hbm, ⟨51, _⟩ => ⟨S32x4096x256, .f32⟩
  | .hbm, ⟨52, _⟩ => ⟨S1x1x256, .f32⟩
  | .hbm, ⟨53, _⟩ => ⟨S32x4096x256, .f32⟩
  | .hbm, ⟨54, _⟩ => ⟨S32x4096x256, .f32⟩
  | .hbm, ⟨55, _⟩ => ⟨S256x256, .f32⟩
  | .hbm, ⟨56, _⟩ => ⟨S32x256, .f32⟩
  | .hbm, ⟨57, _⟩ => ⟨S1x256, .f32⟩
  | .hbm, ⟨58, _⟩ => ⟨S32x256, .f32⟩
  | .hbm, ⟨59, _⟩ => ⟨S32x256, .f32⟩
  | .hbm, ⟨60, _⟩ => ⟨S32x256, .f32⟩
  | .hbm, ⟨61, _⟩ => ⟨S32x256, .f32⟩
  | .hbm, ⟨62, _⟩ => ⟨S_, .f32⟩
  | .hbm, ⟨63, _⟩ => ⟨S32x256, .f32⟩
  | .hbm, ⟨64, _⟩ => ⟨S32x256, .f32⟩
  | .hbm, ⟨65, _⟩ => ⟨S_, .f32⟩
  | .hbm, ⟨66, _⟩ => ⟨S32x256, .f32⟩
  | .hbm, ⟨67, _⟩ => ⟨S32x256, .f32⟩
  | .hbm, ⟨68, _⟩ => ⟨S32x1x256, .f32⟩
  | .hbm, ⟨69, _⟩ => ⟨S_, .f32⟩
  | .hbm, ⟨70, _⟩ => ⟨S32x1x256, .f32⟩
  | .hbm, ⟨71, _⟩ => ⟨S32x1x256, .f32⟩
  | .hbm, ⟨72, _⟩ => ⟨S32x4096x256, .f32⟩
  | .hbm, ⟨73, _⟩ => ⟨S32x4096x256, .f32⟩
  | .hbm, ⟨74, _⟩ => ⟨S32x256x4096, .f32⟩
  | .hbm, ⟨75, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  transposes_S32x256x4096_S32x4096x256_0_2_1 : S32x256x4096.Transposes [0, 2, 1] S32x4096x256
  transposes_S256x256_S256x256_1_0 : S256x256.Transposes [1, 0] S256x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x1x256_0_2 : S32x256.BroadcastsInDim S32x1x256 (![0, 2] : Fin 2 → Fin S32x1x256.rank)
  bcast_S32x1x256_S32x4096x256_0_1_2 : S32x1x256.BroadcastsInDim S32x4096x256 (![0, 1, 2] : Fin 3 → Fin S32x4096x256.rank)
  reducesTo_S32x4096x256_S32x4096_d2 : S32x4096x256.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x256_0_1_2 : S32x4096x1.BroadcastsInDim S32x4096x256 (![0, 1, 2] : Fin 3 → Fin S32x4096x256.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S_S32x256 : S_.BroadcastsInDim S32x256 (![] : Fin 0 → Fin S32x256.rank)
  bcast_S_S32x1x256 : S_.BroadcastsInDim S32x1x256 (![] : Fin 0 → Fin S32x1x256.rank)
  transposes_S32x4096x256_S32x256x4096_0_2_1 : S32x4096x256.Transposes [0, 2, 1] S32x256x4096
  shapeCasts_S32x256x4096_S32x256x64x64 : S32x256x4096.ShapeCasts S32x256x64x64
  dot_S32x256_S256x256_S32x256_1_0_0_1_n_n_wf : DotDims.WF S32x256 S256x256 S32x256 [1] [0] [0] [1] [] []

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

class Facts : Prop extends Facts₀ where

variable [Facts]
-- ==== Proof.GatedNorm.lean ====
/-
  The function both programs compute, on the extended reals.

  Fix a batch entry and a spatial position. The 256 channel values there, after the attention
  term is added, form a column `x`. The column is normalised — its mean `μ = (∑ x) / 256` is
  subtracted, and the deviation is scaled by `rsqrt ((∑ (x − μ)²) / 256 + ε)` — then channel
  `ch` is scaled by `g`, shifted by `b`, and multiplied by `1 + gate`.

  The three float words `256`, `ε` and `1` occur with the same bit patterns in both programs,
  so they are kept as `Ideal.ofBits` of those patterns and never evaluated.
-/
import Idealize.ShloMosaic.PureOps.Ideal
import Idealize.ShloMosaic.Lib.ValueIdx

noncomputable section

open scoped BigOperators

namespace Cert.GatedNorm

open Idealize.ShloMosaic Idealize.ShloMosaic.ValueIdx

/-- The divisor 256, the variance offset ε and the unit, as the words both programs print. -/
abbrev w256 : EReal := Ideal.ofBits .f32 0x43800000#32
abbrev wEps : EReal := Ideal.ofBits .f32 0x3727C5AC#32
abbrev wOne : EReal := Ideal.ofBits .f32 0x3F800000#32

/-- The mean of a column of 256 channel values. -/
def colMean (x : Fin 256 → EReal) : EReal := Ideal.div (∑ k : Fin 256, x k) w256

/-- A channel's deviation from the column's mean. -/
def colDev (x : Fin 256 → EReal) (k : Fin 256) : EReal := x k - colMean x

/-- The mean of the squared deviations. -/
def colVar (x : Fin 256 → EReal) : EReal := Ideal.div (∑ k : Fin 256, colDev x k * colDev x k) w256

/-- Channel `ch` of the normalised, scaled, shifted and gated column. -/
def gatedNorm (x : Fin 256 → EReal) (g b gate : EReal) (ch : Fin 256) : EReal :=
  (colDev x ch * Ideal.rsqrt (colVar x + wEps) * g + b) * (wOne + gate)

/-- The whole result, laid out [batch, channel, position]: the column at `(n, ·, p)` is the
    input's column there plus the attention row of batch entry `n`. -/
def gatedNormArr (X : (⟨3, ![32, 256, 4096]⟩ : Shape).Idx → EReal) (A G : (⟨2, ![32, 256]⟩ : Shape).Idx → EReal)
    (g b : (⟨1, ![256]⟩ : Shape).Idx → EReal) : (⟨3, ![32, 256, 4096]⟩ : Shape).Idx → EReal :=
  fun i => gatedNorm (fun k => X (ix3 (i 0) k (i 2)) + A (ix2 (i 0) k)) (g (ix1 (i 1))) (b (ix1 (i 1))) (G (ix2 (i 0) (i 1))) (i 1)

theorem gatedNormArr_apply (X : (⟨3, ![32, 256, 4096]⟩ : Shape).Idx → EReal) (A G : (⟨2, ![32, 256]⟩ : Shape).Idx → EReal)
    (g b : (⟨1, ![256]⟩ : Shape).Idx → EReal) (n : Fin 32) (ch : Fin 256) (p : Fin 4096) :
    gatedNormArr X A G g b (ix3 n ch p)
      = gatedNorm (fun k => X (ix3 n k p) + A (ix2 n k)) (g (ix1 ch)) (b (ix1 ch)) (G (ix2 n ch)) ch := rfl

end Cert.GatedNorm

end
-- ==== Proof.KernelColumn.lean ====
/-
  The kernel body's one stored value, read at an index.

  A grid point's body sees one batch entry's [1, 256, 2048] block of the input and four
  [1, 256, 1] columns (the attention row, the scale, the shift and the gate, each one value per
  channel). What it stores at `(0, ch, q)` is channel `ch` of the gated normalisation of the
  column `k ↦ block (0, k, q) + attention (0, k, 0)`.
-/
import proofs.«139906_j21775484191118_1_alg».proof.Proof.Gen.KernelIdeal.Skeleton
import proofs.«139906_j21775484191118_1_alg».proof.Proof.GatedNorm
import Idealize.ShloMosaic.Lib.Pipeline.Value
import Idealize.ShloMosaic.Lib.ValueIdx
import Idealize.ShloMosaic.PureOps.Ideal.Laws

noncomputable section

open scoped BigOperators

namespace Cert.KernelIdeal.Column

open Cert.KernelIdeal Cert.KernelIdeal.Gen Idealize.ShloMosaic Idealize.ShloMosaic.ValueIdx Cert.GatedNorm

/-- A per-channel column broadcast along the positions reads its channel's value. -/
theorem bcastChan (v : FVec Ideal S1x256x1 .f32) (h : S1x256x1.Broadcasts S1x256x2048) (ch : Fin 256) (q : Fin 2048) :
    broadcastTo S1x256x2048 v h (ix3 0 ch q) = v (ix3 0 ch 0) :=
  broadcastTo_apply v h (ix3 0 ch q) (ix3 0 ch 0) (fun a => by
    match a with
    | ⟨0, _⟩ => rfl
    | ⟨1, _⟩ => rfl
    | ⟨2, _⟩ => rfl)

/-- A per-position row broadcast along the channels reads its position's value. -/
theorem bcastPos (v : FVec Ideal S1x1x2048 .f32) (h : S1x1x2048.Broadcasts S1x256x2048) (ch : Fin 256) (q : Fin 2048) :
    broadcastTo S1x256x2048 v h (ix3 0 ch q) = v (ix3 0 0 q) :=
  broadcastTo_apply v h (ix3 0 ch q) (ix3 0 0 q) (fun a => by
    match a with
    | ⟨0, _⟩ => rfl
    | ⟨1, _⟩ => rfl
    | ⟨2, _⟩ => rfl)

/-- A [1, 2048] row given a unit channel axis reads the same position. -/
theorem addChanAxis (v : FVec Ideal S1x2048 .f32) (h : S1x2048.ShapeCasts S1x1x2048) (q : Fin 2048) :
    shapeCast S1x1x2048 v h (ix3 0 0 q) = v (ix2 0 q) := by
  refine (shapeCast_addUnit_apply ![1, 2048] v h (ix3 0 0 q)).trans (congrArg v ?_)
  funext a
  match a with
  | ⟨0, _⟩ => rfl
  | ⟨1, _⟩ => rfl

/-- The sum over the channel axis, at a position, is the sum of that position's column. -/
theorem sumChan (v : FVec Ideal S1x256x2048 .f32) (h : S1x256x2048.Reduces [1] S1x2048) (hφ : FTy.f32 = FTy.f32 ∨ FTy.f32 = FTy.bf16)
    (hacc : (0x00000000#32 : BitVec 32) = 0x00000000#32) (q : Fin 2048) :
    multiReduction .add [1] S1x2048 v 0x00000000#32 h hφ hacc (ix2 0 q) = ∑ k : Fin 256, v (ix3 0 k q) := by
  refine (Ideal.multiReduction_add_single v 0x00000000#32 h hφ hacc (ix2 0 q)).trans ?_
  refine Finset.sum_congr rfl fun k _ => congrArg v ?_
  funext a
  apply Fin.ext
  match a with
  | ⟨0, _⟩ => rfl
  | ⟨1, _⟩ => rfl
  | ⟨2, _⟩ => rfl

/-- A reciprocal square root at an index is the reciprocal square root of the element. -/
theorem rsqrt_apply {s : Shape} {φ : FTy} (v : FVec Ideal s φ) (i : s.Idx) : rsqrt v i = Ideal.rsqrt (v i) := rfl

/-- THE STORED VALUE at `(0, ch, q)`. -/
theorem pay_apply (x0 : Vec Ideal S1x256x2048 .f32) (x1 x2 x3 x4 : Vec Ideal S1x256x1 .f32) (ch : Fin 256) (q : Fin 2048) :
    k0_pay1 (F := Ideal) x0 x1 x2 x3 x4 (ix3 0 ch q)
      = gatedNorm (fun k => x0 (ix3 0 k q) + x1 (ix3 0 k 0)) (x2 (ix3 0 ch 0)) (x3 (ix3 0 ch 0)) (x4 (ix3 0 ch 0)) ch := by
  unfold k0_pay1 gatedNorm colVar colDev colMean
  simp only [mulf_apply, addf_apply, subf_apply, divf_apply, broadcast_apply, rsqrt_apply, bcastChan, bcastPos, addChanAxis,
    shapeCast_self, Ideal.ofBits_def, Ideal.rsqrt_def]
  rw [sumChan, sumChan]
  simp only [mulf_apply, addf_apply, subf_apply, divf_apply, broadcast_apply, bcastChan, bcastPos, addChanAxis]
  rw [sumChan]
  simp only [addf_apply, bcastChan]

end Cert.KernelIdeal.Column

end
-- ==== Proof.KernelEntry.lean ====
/-
  What the kernel's region finds in the five arrays it stages, as terms of the program's arguments.

  Before the region the host computes the attention row `(text · Wvᵀ + bv) · Woᵀ + bo` and the gate
  `1 / (1 + exp (−(metrics · gWᵀ + gb)))`, one value per (batch entry, channel), and lays the five
  operands out for the region: the input with its two spatial axes merged, and the attention row,
  the gate, the scale and the shift each with a trailing unit axis.
-/
import proofs.«139906_j21775484191118_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- A linear layer `x · Wᵀ + b` as the host computes it. -/
def linear (x : (⟨S32x256, .f32⟩ : BufTy).Contents (Elt F)) (W : (⟨S256x256, .f32⟩ : BufTy).Contents (Elt F))
    (b : (⟨S256, .f32⟩ : BufTy).Contents (Elt F)) : (⟨S32x256, .f32⟩ : BufTy).Contents (Elt F) :=
  addf (Host.dotGeneral dot_S32x256_S256x256_S32x256_1_0_0_1_n_n none x (transpose S256x256 [1, 0] W transposes_S256x256_S256x256_1_0))
    (broadcastInDim S32x256 ![0, 1] bcast_S1x256_S32x256_0_1 (broadcastInDim S1x256 ![1] bcast_S256_S1x256_1 b))

/-- The attention row: two linear layers applied to the text vector. -/
def attn (text : (⟨S32x256, .f32⟩ : BufTy).Contents (Elt F)) (Wv : (⟨S256x256, .f32⟩ : BufTy).Contents (Elt F))
    (bv : (⟨S256, .f32⟩ : BufTy).Contents (Elt F)) (Wo : (⟨S256x256, .f32⟩ : BufTy).Contents (Elt F))
    (bo : (⟨S256, .f32⟩ : BufTy).Contents (Elt F)) : (⟨S32x256, .f32⟩ : BufTy).Contents (Elt F) :=
  linear (linear text Wv bv) Wo bo

/-- The gate: the logistic function of a linear layer of the metrics, as `1 / (1 + exp (−z))`. -/
def gate (metrics : (⟨S32x256, .f32⟩ : BufTy).Contents (Elt F)) (gW : (⟨S256x256, .f32⟩ : BufTy).Contents (Elt F))
    (gb : (⟨S256, .f32⟩ : BufTy).Contents (Elt F)) : (⟨S32x256, .f32⟩ : BufTy).Contents (Elt F) :=
  Host.divf (broadcastInDim S32x256 ![] bcast_S_S32x256 (constant S_ .f32 0x3F800000#32))
    (addf (broadcastInDim S32x256 ![] bcast_S_S32x256 (constant S_ .f32 0x3F800000#32))
      (Host.exp (Host.negf (linear metrics gW gb))))

variable (m : (ℓ : Loc nD τ sig) → Buf (Elt F) ℓ)

/-- The staged input: the argument with its two spatial axes merged. -/
theorem entry_input (c : Dev nD) :
    V m c main_v21 = shapeCast S32x256x4096 (m ((c : Thread nD τ).loc main_arg0)) shapeCasts_S32x256x64x64_S32x256x4096 := by
  show StableHlo.after hostOps0 (fun b => m (c, b)) (Proc.devRef .tc main_v21) = _
  after_results_simp <;> rfl

/-- The staged attention row. -/
theorem entry_attn (c : Dev nD) :
    V m c main_v22 = shapeCast S32x256x1 (attn (m ((c : Thread nD τ).loc main_arg1)) (m ((c : Thread nD τ).loc main_arg3))
      (m ((c : Thread nD τ).loc main_arg4)) (m ((c : Thread nD τ).loc main_arg5)) (m ((c : Thread nD τ).loc main_arg6)))
      shapeCasts_S32x256_S32x256x1 := by
  show StableHlo.after hostOps0 (fun b => m (c, b)) (Proc.devRef .tc main_v22) = _
  after_results_simp <;> rfl

/-- The staged gate. -/
theorem entry_gate (c : Dev nD) :
    V m c main_v23 = shapeCast S32x256x1 (gate (m ((c : Thread nD τ).loc main_arg2)) (m ((c : Thread nD τ).loc main_arg9))
      (m ((c : Thread nD τ).loc main_arg10))) shapeCasts_S32x256_S32x256x1 := by
  show StableHlo.after hostOps0 (fun b => m (c, b)) (Proc.devRef .tc main_v23) = _
  after_results_simp <;> rfl

/-- The staged scale. -/
theorem entry_scale (c : Dev nD) :
    V m c main_v24 = shapeCast S1x256x1 (m ((c : Thread nD τ).loc main_arg7)) shapeCasts_S256_S1x256x1 := by
  show StableHlo.after hostOps0 (fun b => m (c, b)) (Proc.devRef .tc main_v24) = _
  after_results_simp <;> rfl

/-- The staged shift. -/
theorem entry_shift (c : Dev nD) :
    V m c main_v25 = shapeCast S1x256x1 (m ((c : Thread nD τ).loc main_arg8)) shapeCasts_S256_S1x256x1 := by
  show StableHlo.after hostOps0 (fun b => m (c, b)) (Proc.devRef .tc main_v25) = _
  after_results_simp <;> rfl

end Cert.KernelIdeal.Entry

end
-- ==== Proof.KernelArray.lean ====
/-
  The array the kernel's region leaves, and the program's result.

  The grid has one point per (batch entry, half of the 4096 positions). A point's output block
  is [1, 256, 2048]: every channel of one batch entry at 2048 consecutive positions. The input
  block is the same rectangle of the input; the attention and gate columns are the batch entry's;
  the scale and shift columns do not move. So every point writes the restriction to its block of
  ONE function of the staged arrays, the blocks tile the array, and the region leaves that
  function. The host then splits the position axis back into two.
-/
import proofs.«139906_j21775484191118_1_alg».proof.Proof.Gen.KernelIdeal.Frame
import proofs.«139906_j21775484191118_1_alg».proof.Proof.KernelColumn
import proofs.«139906_j21775484191118_1_alg».proof.Proof.KernelEntry
import Idealize.ShloMosaic.Lib.Pipeline.Value

set_option maxRecDepth 16384

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.GatedNorm Cert.KernelIdeal.Column Cert.KernelIdeal.Entry
open Idealize.ShloMosaic.Pipeline (Dat)

variable (m : (ℓ : Loc nD τ sig) → Buf (Elt Ideal) ℓ) (ρ : Dev nD → PrngReg)

/-- The five staged arrays as the region finds them, at their literal types. -/
abbrev inArr (c : Dev nD) : FVec Ideal S32x256x4096 .f32 := V m c main_v21
abbrev attnArr (c : Dev nD) : FVec Ideal S32x256x1 .f32 := V m c main_v22
abbrev scaleArr (c : Dev nD) : FVec Ideal S1x256x1 .f32 := V m c main_v24
abbrev shiftArr (c : Dev nD) : FVec Ideal S1x256x1 .f32 := V m c main_v25
abbrev gateArr (c : Dev nD) : FVec Ideal S32x256x1 .f32 := V m c main_v23

/-- What the region leaves at `(n, ch, p)`: channel `ch` of the gated normalisation of the column at `(n, ·, p)`. -/
def regionOut (c : Dev nD) : S32x256x4096.Idx → EReal := fun i =>
  gatedNorm (fun k => inArr m c (ix3 (i 0) k (i 2)) + attnArr m c (ix3 (i 0) k 0))
    (scaleArr m c (ix3 0 (i 1) 0)) (shiftArr m c (ix3 0 (i 1) 0)) (gateArr m c (ix3 (i 0) (i 1) 0)) (i 1)

/-- An index of a [1, 256, 2048] block is its channel and its position. -/
theorem blockIdx_eq (y : S1x256x2048.Idx) : ∃ (ch : Fin 256) (q : Fin 2048), y = ix3 0 ch q := by
  refine ⟨y 1, y 2, ?_⟩
  funext a
  match a with
  | ⟨0, _⟩ => exact Fin.ext (by have h0 : (y 0).val < 1 := (y 0).isLt; show (y 0).val = 0; omega)
  | ⟨1, _⟩ => rfl
  | ⟨2, _⟩ => rfl

theorem hz : (![0, 0, 0] : Fin 3 → Nat) = fun _ => 0 := funext fun a => by fin_cases a <;> rfl

/-- The index maps, decided over the 64 points: the input's block index is the output's; the attention and gate
    columns follow the batch coordinate only; the scale and shift columns stay at the origin. -/
theorem idx_facts : ∀ t : Fin cfg0.N,
    win0_0.index t (0 : Fin 3) = win0_5.index t (0 : Fin 3) ∧ win0_0.index t (1 : Fin 3) = 0 ∧ win0_0.index t (2 : Fin 3) = win0_5.index t (2 : Fin 3)
    ∧ win0_1.index t (0 : Fin 3) = win0_5.index t (0 : Fin 3) ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 31 ∧ win0_5.index t (1 : Fin 3) = 0 ∧ win0_5.index t (2 : Fin 3) ≤ 1 :=
  (by decide +kernel : ∀ t : Fin grid0.N, _)

/-- Every block of the output is some point's. -/
theorem idx_onto : ∀ (q0 : Fin 32) (q2 : Fin 2), ∃ t : Fin cfg0.N, win0_5.index t = ![q0.val, 0, q2.val] :=
  (by decide +kernel : ∀ (q0 : Fin 32) (q2 : Fin 2), ∃ t : Fin grid0.N, win0_5.index t = ![q0.val, 0, q2.val])

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz]
  simp only [View.ld_unit_zero (S := S1x256x2048) hz, View.ld_unit_zero (S := S1x256x1) hz]
  funext y
  obtain ⟨ch, q, rfl⟩ := blockIdx_eq y
  show k0_pay1 (F := Ideal) (iblk m c 0 t) (iblk m c 1 t) (iblk m c 2 t) (iblk m c 3 t) (iblk m c 4 t) (ix3 0 ch q)
    = regionOut m c (((cfg0.win 5).blk t).view.emb (ix3 0 ch q))
  refine (pay_apply (iblk m c 0 t) (iblk m c 1 t) (iblk m c 2 t) (iblk m c 3 t) (iblk m c 4 t) ch q).trans ?_
  unfold regionOut
  obtain ⟨f00, f01, f02, f10, f11, f12, f20, f21, f22, f30, f31, f32, f40, f41, f42, f50, f51, f52⟩ := idx_facts t
  have e1 : ((cfg0.win 5).blk t).view.emb (ix3 0 ch q) 1 = ch := Fin.ext (by
    show win0_5.index t (1 : Fin 3) * 256 + 1 * ch.val = ch.val; omega)
  rw [e1]
  have hin : ∀ k : Fin 256, iblk m c 0 t (ix3 0 k q)
      = inArr m c (ix3 (((cfg0.win 5).blk t).view.emb (ix3 0 ch q) 0) k (((cfg0.win 5).blk t).view.emb (ix3 0 ch q) 2)) := fun k => by
    show V m c main_v21 (((cfg0.win 0).blk t).view.emb (ix3 0 k q)) = V m c main_v21 _
    refine congrArg _ (funext fun a => Fin.ext ?_)
    match a with
    | ⟨0, _⟩ => show win0_0.index t (0 : Fin 3) * 1 + 1 * 0 = win0_5.index t (0 : Fin 3) * 1 + 1 * 0; omega
    | ⟨1, _⟩ => show win0_0.index t (1 : Fin 3) * 256 + 1 * k.val = k.val; omega
    | ⟨2, _⟩ => show win0_0.index t (2 : Fin 3) * 2048 + 1 * q.val = win0_5.index t (2 : Fin 3) * 2048 + 1 * q.val; omega
  have hattn : ∀ k : Fin 256, iblk m c 1 t (ix3 0 k 0)
      = attnArr m c (ix3 (((cfg0.win 5).blk t).view.emb (ix3 0 ch q) 0) k 0) := fun k => by
    show V m c main_v22 (((cfg0.win 1).blk t).view.emb (ix3 0 k 0)) = V m c main_v22 _
    refine congrArg _ (funext fun a => Fin.ext ?_)
    match a with
    | ⟨0, _⟩ => show win0_1.index t (0 : Fin 3) * 1 + 1 * 0 = win0_5.index t (0 : Fin 3) * 1 + 1 * 0; omega
    | ⟨1, _⟩ => show win0_1.index t (1 : Fin 3) * 256 + 1 * k.val = k.val; omega
    | ⟨2, _⟩ => show win0_1.index t (2 : Fin 3) * 1 + 1 * 0 = 0; omega
  have hscale : iblk m c 2 t (ix3 0 ch 0) = scaleArr m c (ix3 0 ch 0) := by
    show V m c main_v24 (((cfg0.win 2).blk t).view.emb (ix3 0 ch 0)) = V m c main_v24 _
    refine congrArg _ (funext fun a => Fin.ext ?_)
    match a with
    | ⟨0, _⟩ => show win0_2.index t (0 : Fin 3) * 1 + 1 * 0 = 0; omega
    | ⟨1, _⟩ => show win0_2.index t (1 : Fin 3) * 256 + 1 * ch.val = ch.val; omega
    | ⟨2, _⟩ => show win0_2.index t (2 : Fin 3) * 1 + 1 * 0 = 0; omega
  have hshift : iblk m c 3 t (ix3 0 ch 0) = shiftArr m c (ix3 0 ch 0) := by
    show V m c main_v25 (((cfg0.win 3).blk t).view.emb (ix3 0 ch 0)) = V m c main_v25 _
    refine congrArg _ (funext fun a => Fin.ext ?_)
    match a with
    | ⟨0, _⟩ => show win0_3.index t (0 : Fin 3) * 1 + 1 * 0 = 0; omega
    | ⟨1, _⟩ => show win0_3.index t (1 : Fin 3) * 256 + 1 * ch.val = ch.val; omega
    | ⟨2, _⟩ => show win0_3.index t (2 : Fin 3) * 1 + 1 * 0 = 0; omega
  have hgate : iblk m c 4 t (ix3 0 ch 0)
      = gateArr m c (ix3 (((cfg0.win 5).blk t).view.emb (ix3 0 ch q) 0) ch 0) := by
    show V m c main_v23 (((cfg0.win 4).blk t).view.emb (ix3 0 ch 0)) = V m c main_v23 _
    refine congrArg _ (funext fun a => Fin.ext ?_)
    match a with
    | ⟨0, _⟩ => show win0_4.index t (0 : Fin 3) * 1 + 1 * 0 = win0_5.index t (0 : Fin 3) * 1 + 1 * 0; omega
    | ⟨1, _⟩ => show win0_4.index t (1 : Fin 3) * 256 + 1 * ch.val = ch.val; omega
    | ⟨2, _⟩ => show win0_4.index t (2 : Fin 3) * 1 + 1 * 0 = 0; omega
  rw [hscale, hshift, hgate]
  exact congrArg (fun f => gatedNorm f _ _ _ ch) (funext fun k => by rw [hin k, hattn k])

/-- An index of the array is in point `t`'s block iff each coordinate is in the block's range on its axis. -/
theorem mem_blk (t : Fin cfg0.N) (i : S32x256x4096.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v26).slice (win0_5.rect t)).set ↔ _
  rw [View.set_slice_whole, Rect.mem_set_unit]
  exact Iff.rfl

/-- The blocks tile the array: index `(n, ch, p)` lies in the block of the point `(n, p / 2048)`. -/
theorem cover (i : S32x256x4096.Idx) :
    ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 4096 := (i 2).isLt
  obtain ⟨t, ht⟩ := idx_onto ⟨(i 0).val, hi0⟩ ⟨(i 2).val / 2048, by omega⟩
  have q0 : win0_5.index t (0 : Fin 3) = (i 0).val := congrFun ht 0
  have q1 : win0_5.index t (1 : Fin 3) = 0 := congrFun ht 1
  have q2 : win0_5.index t (2 : Fin 3) = (i 2).val / 2048 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- THE ARRAY the region leaves. -/
theorem final (c : Dev nD) : (dats m 0 c).arrAt 5 cfg0.N = regionOut m c :=
  (dats m 0 c).arrAt_eq_of_cover 5 (regionOut m c) (fun t _ => flushed_eq m c t) cover

/-- THE RESULT: the host's last line splits the position axis of that array. -/
theorem result_eq (c : Dev nD) :
    Pipeline.afterTail₀ cfgs (dats m) 0 (V0 m) [hostOps1] c main_v27
      = shapeCast S32x256x64x64 (regionOut m c) shapeCasts_S32x256x4096_S32x256x64x64 := by
  unfold Pipeline.afterTail₀
  show StableHlo.after hostOps1 _ (Proc.devRef .tc main_v27) = _
  after_results
  have hw : Pipeline.withArrays (cfgs 0).spec c (V0 m c) (fun w => (dats m 0 c).arrAt w (cfgs 0).N) (Proc.devRef .tc main_v26)
      = regionOut m c :=
    (Pipeline.withArrays_arr spec0 launch0.win.arr_inj c _ _ 5).trans (final m c)
  rw [hw]
  rfl

/-- THE RUN, read: every weakly fair execution of the kernel's program ends with the result at the reshaped
    `regionOut` and the arguments as launched. -/
theorem run : θ_run defs (onTc (τ := τ) (main (F := Ideal))) ⟨m, fun _ => 0, ρ⟩ fun r => ∀ c : Dev nD,
      r.2.mem ((c.tc : Thread nD τ).loc main_v27) = shapeCast S32x256x64x64 (regionOut m c) shapeCasts_S32x256x4096_S32x256x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Result

end
-- ==== Proof.KernelResult.lean ====
/-
  The kernel's result as a function of the program's arguments.

  The staged attention row, gate, scale and shift carry unit axes the host added; reading through
  them, the array the region leaves is the gated normalisation of the merged input, the attention
  row and the gate, with the scale and shift vectors themselves.
-/
import proofs.«139906_j21775484191118_1_alg».proof.Proof.KernelArray

noncomputable section

namespace Cert.KernelIdeal.Result

open Cert.KernelIdeal Cert.KernelIdeal.Gen Idealize.ShloMosaic Idealize.ShloMosaic.TcCoe Idealize.SL.Sem
open Idealize.ShloMosaic.ValueIdx Cert.GatedNorm Cert.KernelIdeal.Entry

/-- A [32, 256] array given a trailing unit axis reads the same entry. -/
theorem trailingUnit (v : FVec Ideal S32x256 .f32) (h : S32x256.ShapeCasts S32x256x1) (n : Fin 32) (k : Fin 256) :
    shapeCast S32x256x1 v h (ix3 n k 0) = v (ix2 n k) :=
  shapeCast_apply v h (ix3 n k 0) (ix2 n k) (by
    rewrite [Shape.rowMajor_val_two, Shape.rowMajor_val_three]
    show n.val * 256 + k.val = (n.val * 256 + k.val) * 1 + 0; omega)

/-- A [256] vector given a leading and a trailing unit axis reads the same entry. -/
theorem columnOf (v : FVec Ideal S256 .f32) (h : S256.ShapeCasts S1x256x1) (ch : Fin 256) :
    shapeCast S1x256x1 v h (ix3 0 ch 0) = v (ix1 ch) :=
  shapeCast_apply v h (ix3 0 ch 0) (ix1 ch) (by
    rewrite [Shape.rowMajor_val_one, Shape.rowMajor_val_three]
    show ch.val = (0 * 256 + ch.val) * 1 + 0; omega)

variable (m : (ℓ : Loc nD τ sig) → Buf (Elt Ideal) ℓ)

/-- THE REGION'S ARRAY as a function of the arguments. -/
theorem regionOut_eq (c : Dev nD) :
    regionOut m c = gatedNormArr (shapeCast S32x256x4096 (m ((c.tc : Thread nD τ).loc main_arg0)) shapeCasts_S32x256x64x64_S32x256x4096)
      (attn (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
      (gate (m ((c.tc : Thread nD τ).loc main_arg2)) (m ((c.tc : Thread nD τ).loc main_arg9)) (m ((c.tc : Thread nD τ).loc main_arg10)))
      (m ((c.tc : Thread nD τ).loc main_arg7)) (m ((c.tc : Thread nD τ).loc main_arg8)) := by
  funext i
  obtain ⟨n, ch, p, rfl⟩ : ∃ (n : Fin 32) (ch : Fin 256) (p : Fin 4096), i = ix3 n ch p := ⟨i 0, i 1, i 2, eq_ix3 i⟩
  rw [gatedNormArr_apply]
  show gatedNorm (fun k => inArr m c (ix3 n k p) + attnArr m c (ix3 n k 0)) (scaleArr m c (ix3 0 ch 0)) (shiftArr m c (ix3 0 ch 0))
    (gateArr m c (ix3 n ch 0)) ch = _
  unfold inArr attnArr scaleArr shiftArr gateArr
  rw [entry_input, entry_attn, entry_gate, entry_scale, entry_shift]
  simp only [trailingUnit]
  rw [columnOf (m ((c.tc : Thread nD τ).loc main_arg7)) shapeCasts_S256_S1x256x1 ch, columnOf (m ((c.tc : Thread nD τ).loc main_arg8)) shapeCasts_S256_S1x256x1 ch]

end Cert.KernelIdeal.Result

end
-- ==== Proof.ReferenceColumn.lean ====
/-
  The reference, read at an index.

  The reference lays the input out [batch, position, channel], so a column is a row of that array.
  At `(n, p, k)` it adds the attention row's entry `(n, k)`; it sums over the last axis for the mean
  and for the mean of squared deviations, each from the zero word (which is `0`, so the sum is
  unchanged); it scales, shifts and gates channel-wise; and it transposes back to
  [batch, channel, position]. Reading one entry through all of that gives the gated normalisation
  of the column at `(n, ·, p)`, where the column is taken from the reference's own first stage (the
  input with its spatial axes merged), its attention stage and its gate stage.
-/
import proofs.«139906_j21775484191118_1_alg».proof.Proof.Gen.ReferenceIdeal.Read
import proofs.«139906_j21775484191118_1_alg».proof.Proof.GatedNorm

noncomputable section

open scoped BigOperators

namespace Cert.ReferenceIdeal.Column

open Cert.ReferenceIdeal Cert.ReferenceIdeal.Gen Cert.ReferenceIdeal.Read Idealize.ShloMosaic Idealize.ShloMosaic.ValueIdx Cert.GatedNorm

/-! ## The layout operations' index maps at coordinates -/

section Indices
variable (n : Fin 32) (ch k : Fin 256) (p : Fin 4096)

theorem at_transposeBack : idx_main_v55 (ix3 n ch p) = ix3 n p ch := by funext a; match a with | ⟨0, _⟩ => rfl | ⟨1, _⟩ => rfl | ⟨2, _⟩ => rfl
theorem at_transpose : idx_main_v1 (ix3 n p k) = ix3 n k p := by funext a; match a with | ⟨0, _⟩ => rfl | ⟨1, _⟩ => rfl | ⟨2, _⟩ => rfl
theorem at_attnRows : idx_main_v13 (ix3 n p k) = ix3 n 0 k := by funext a; match a with | ⟨0, _⟩ => rfl | ⟨1, _⟩ => rfl | ⟨2, _⟩ => rfl
theorem at_attnUnit : idx_main_v12 (ix3 n (0 : Fin 1) k) = ix2 n k := by funext a; match a with | ⟨0, _⟩ => rfl | ⟨1, _⟩ => rfl
theorem at_sum : idx_main_v15 (ix2 n p) k = ix3 n p k := by funext a; match a with | ⟨0, _⟩ => rfl | ⟨1, _⟩ => rfl | ⟨2, _⟩ => rfl
theorem at_sumSq : idx_main_v22 (ix2 n p) k = ix3 n p k := by funext a; match a with | ⟨0, _⟩ => rfl | ⟨1, _⟩ => rfl | ⟨2, _⟩ => rfl
theorem at_keep : idx_main_v16 (ix3 n p (0 : Fin 1)) = ix2 n p := by funext a; match a with | ⟨0, _⟩ => rfl | ⟨1, _⟩ => rfl
theorem at_keepSq : idx_main_v23 (ix3 n p (0 : Fin 1)) = ix2 n p := by funext a; match a with | ⟨0, _⟩ => rfl | ⟨1, _⟩ => rfl
theorem at_mean : idx_main_v19 (ix3 n p k) = ix3 n p 0 := by funext a; match a with | ⟨0, _⟩ => rfl | ⟨1, _⟩ => rfl | ⟨2, _⟩ => rfl
theorem at_mean' : idx_main_v26 (ix3 n p k) = ix3 n p 0 := by funext a; match a with | ⟨0, _⟩ => rfl | ⟨1, _⟩ => rfl | ⟨2, _⟩ => rfl
theorem at_inv : idx_main_v31 (ix3 n p k) = ix3 n p 0 := by funext a; match a with | ⟨0, _⟩ => rfl | ⟨1, _⟩ => rfl | ⟨2, _⟩ => rfl
theorem at_scaleRows : idx_main_v34 (ix3 n p ch) = ix3 0 0 ch := by funext a; match a with | ⟨0, _⟩ => rfl | ⟨1, _⟩ => rfl | ⟨2, _⟩ => rfl
theorem at_scale : idx_main_v33 (ix3 (0 : Fin 1) (0 : Fin 1) ch) = ix1 ch := by funext a; match a with | ⟨0, _⟩ => rfl
theorem at_shiftRows : idx_main_v37 (ix3 n p ch) = ix3 0 0 ch := by funext a; match a with | ⟨0, _⟩ => rfl | ⟨1, _⟩ => rfl | ⟨2, _⟩ => rfl
theorem at_shift : idx_main_v36 (ix3 (0 : Fin 1) (0 : Fin 1) ch) = ix1 ch := by funext a; match a with | ⟨0, _⟩ => rfl
theorem at_gateRows : idx_main_v53 (ix3 n p ch) = ix3 n 0 ch := by funext a; match a with | ⟨0, _⟩ => rfl | ⟨1, _⟩ => rfl | ⟨2, _⟩ => rfl
theorem at_gateUnit : idx_main_v50 (ix3 n (0 : Fin 1) ch) = ix2 n ch := by funext a; match a with | ⟨0, _⟩ => rfl | ⟨1, _⟩ => rfl

end Indices

/-! ## The result before the last reshape -/

/-- The reference's [batch, channel, position] array is the gated normalisation of its own input,
    attention and gate stages. -/
theorem array_eq (x0 : (⟨S32x256x64x64, .f32⟩ : BufTy).Contents (Elt Ideal)) (x1 : (⟨S32x256, .f32⟩ : BufTy).Contents (Elt Ideal)) (x2 : (⟨S32x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) :
    val_main_v55 (F := Ideal) x0 x1 x2 x3 x4 x5 x6 x7 x8 x9 x10
      = gatedNormArr (val_main_v0 (F := Ideal) x0) (val_main_v11 (F := Ideal) x1 x3 x4 x5 x6) (val_main_v49 (F := Ideal) x2 x9 x10) x7 x8 := by
  funext i
  obtain ⟨n, ch, p, rfl⟩ : ∃ (n : Fin 32) (ch : Fin 256) (p : Fin 4096), i = ix3 n ch p := ⟨i 0, i 1, i 2, eq_ix3 i⟩
  rw [gatedNormArr_apply]
  unfold gatedNorm colVar colDev colMean
  simp only [val_main_v55_apply, val_main_v54_apply, val_main_v53_apply, val_main_v52_apply, val_main_v51_apply, val_main_cst_6_apply,
    val_main_v50_apply, val_main_v38_apply, val_main_v37_apply, val_main_v36_apply, val_main_v35_apply, val_main_v34_apply,
    val_main_v33_apply, val_main_v32_apply, val_main_v31_apply, val_main_v30_apply, val_main_v29_apply, val_main_v28_apply,
    val_main_cst_3_apply, val_main_v27_apply, val_main_v26_apply, val_main_v25_apply, val_main_v24_apply, val_main_cst_2_apply,
    val_main_v23_apply, val_main_v22_apply, val_main_cst_1_apply, val_main_v21_apply, val_main_v20_apply, val_main_v19_apply,
    val_main_v18_apply, val_main_v17_apply, val_main_cst_0_apply, val_main_v16_apply, val_main_v15_apply, val_main_cst_apply,
    val_main_v14_apply, val_main_v13_apply, val_main_v12_apply, val_main_v1_apply,
    at_transposeBack, at_transpose, at_attnRows, at_attnUnit, at_sum, at_sumSq, at_keep, at_keepSq, at_mean, at_mean', at_inv,
    at_scaleRows, at_scale, at_shiftRows, at_shift, at_gateRows, at_gateUnit,
    Ideal.mulf_def, Ideal.addf_def, Ideal.subf_def, Ideal.hostDivf_def, Ideal.hostUnary_rsqrt_def, Ideal.ofBits_def,
    Ideal.ofBits_zero_f32, zero_add]

end Cert.ReferenceIdeal.Column

end
-- ==== Proof.lean ====
/-
  Channel-wise layer normalisation with an attention residual and a sigmoid gate:
  the kernel's program against its reference, over the extended reals.

  Both programs first compute, per batch entry, an attention row (two linear layers of the text
  vector) and a gate (the logistic function of a linear layer of the metrics) with the same host
  operations. The reference then works on the input laid out [batch, position, channel]: it adds
  the attention row, normalises every column over its 256 channels, scales, shifts and gates it,
  and transposes back. The kernel does the same on the natural [batch, channel, position] layout,
  one batch entry and 2048 positions per grid point, reducing over the channel axis inside the
  block. Entry by entry both are `gatedNorm` (Proof/GatedNorm.lean) of the same column with the
  same scale, shift and gate; no law of the extended reals is needed beyond reading each sum at an
  index, so the precondition is not used.

  * Proof/KernelColumn.lean — the kernel body's stored value at an index;
  * Proof/KernelEntry.lean — the arrays the region stages, as terms of the arguments;
  * Proof/KernelArray.lean — every point writes a block of one function, the blocks tile the
    array, and the host's last reshape of it is the program's result;
  * Proof/KernelResult.lean — that function in terms of the arguments;
  * Proof/ReferenceColumn.lean — the reference read at an index.
-/
import proofs.«139906_j21775484191118_1_alg».proof.Defs
import proofs.«139906_j21775484191118_1_alg».proof.Proof.Gen.Kernel
import proofs.«139906_j21775484191118_1_alg».proof.Proof.Gen.Kernel.Skeleton
import proofs.«139906_j21775484191118_1_alg».proof.Proof.Gen.Kernel.Launch
import proofs.«139906_j21775484191118_1_alg».proof.Proof.Gen.Kernel.Points
import proofs.«139906_j21775484191118_1_alg».proof.Proof.Gen.Kernel.Frame
import proofs.«139906_j21775484191118_1_alg».proof.Proof.Gen.KernelIdeal
import proofs.«139906_j21775484191118_1_alg».proof.Proof.Gen.KernelIdeal.Skeleton
import proofs.«139906_j21775484191118_1_alg».proof.Proof.Gen.KernelIdeal.Launch
import proofs.«139906_j21775484191118_1_alg».proof.Proof.Gen.KernelIdeal.Points
import proofs.«139906_j21775484191118_1_alg».proof.Proof.Gen.KernelIdeal.Frame
import proofs.«139906_j21775484191118_1_alg».proof.Proof.Gen.ReferenceIdeal
import proofs.«139906_j21775484191118_1_alg».proof.Proof.Gen.Pre_finite_inputs
import proofs.«139906_j21775484191118_1_alg».proof.Proof.Gen.ReferenceIdeal.Run
import proofs.«139906_j21775484191118_1_alg».proof.Proof.Gen.ReferenceIdeal.Read
import proofs.«139906_j21775484191118_1_alg».proof.Proof.KernelResult
import proofs.«139906_j21775484191118_1_alg».proof.Proof.ReferenceColumn
import Idealize.ShloMosaic.Adequacy
import Idealize.ShloMosaic.Init

noncomputable section

namespace Cert.Proof

open Idealize.ShloMosaic Idealize.ShloMosaic.TcCoe Idealize.SL.Sem

/-! ## The host terms of the two programs are the same terms -/

section SameTerms

open Cert.KernelIdeal.Entry Cert.ReferenceIdeal.Read

/-- The kernel program's attention row is the reference's attention stage. -/
theorem attn_eq (x1 : (⟨Cert.KernelIdeal.S32x256, .f32⟩ : BufTy).Contents (Elt Ideal)) (x3 : (⟨Cert.KernelIdeal.S256x256, .f32⟩ : BufTy).Contents (Elt Ideal))
    (x4 : (⟨Cert.KernelIdeal.S256, .f32⟩ : BufTy).Contents (Elt Ideal)) (x5 : (⟨Cert.KernelIdeal.S256x256, .f32⟩ : BufTy).Contents (Elt Ideal))
    (x6 : (⟨Cert.KernelIdeal.S256, .f32⟩ : BufTy).Contents (Elt Ideal)) :
    attn (F := Ideal) x1 x3 x4 x5 x6 = val_main_v11 (F := Ideal) x1 x3 x4 x5 x6 := rfl

/-- The kernel program's gate is the reference's gate stage. -/
theorem gate_eq (x2 : (⟨Cert.KernelIdeal.S32x256, .f32⟩ : BufTy).Contents (Elt Ideal)) (x9 : (⟨Cert.KernelIdeal.S256x256, .f32⟩ : BufTy).Contents (Elt Ideal))
    (x10 : (⟨Cert.KernelIdeal.S256, .f32⟩ : BufTy).Contents (Elt Ideal)) :
    gate (F := Ideal) x2 x9 x10 = val_main_v49 (F := Ideal) x2 x9 x10 := rfl

/-- The kernel program's merged input is the reference's first stage. -/
theorem input_eq (x0 : (⟨Cert.KernelIdeal.S32x256x64x64, .f32⟩ : BufTy).Contents (Elt Ideal)) :
    shapeCast Cert.KernelIdeal.S32x256x4096 x0 Cert.KernelIdeal.Facts₀.shapeCasts_S32x256x64x64_S32x256x4096 = val_main_v0 (F := Ideal) x0 := rfl

end SameTerms

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing, so there is nothing to preserve. -/
theorem preserves : Cert.preserves_Kernel_KernelIdeal := trivial

/-- Run from memories that agree on the arguments, the kernel's program ends with the reshaped `regionOut` and the
    reference with the reshape of its own [batch, channel, position] array; the two arrays are the gated normalisation
    of the same three host terms and the same scale and shift. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v56_eq, a0, a1, a2, a3, a4, a5, a6, a7, a8, a9, a10]
  unfold Cert.ReferenceIdeal.Read.val_main_v56
  rw [Cert.ReferenceIdeal.Column.array_eq, Cert.KernelIdeal.Result.regionOut_eq, attn_eq, gate_eq, input_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
